-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S64x64 : Shape := ⟨2, ![64, 64]⟩
abbrev S8x64 : Shape := ⟨2, ![8, 64]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S8x64 : S_.BroadcastsInDim S8x64 (![] : Fin 0 → Fin S8x64.rank)
  reducesTo_S8x64_S_d0_1 : S8x64.ReducesTo [0, 1] S_

variable [Facts]

def fn_part1 {F : FTy → Type} [FloatOps F] (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  main_v18

def fn {F : FTy → Type} [FloatOps F] (main_arg0 : FVec F S500000x64 .f32) (main_arg1 : FVec F S500000x64 .f32) (main_arg2 : FVec F S64x64 .f32) (main_arg3 : FVec F S8x64 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S8x64 .f32 := Host.absf main_arg3
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_v13 main_v16
-- ==== Kernel.lean ====
abbrev S500000x64 : Shape := ⟨2, ![500000, 64]⟩
abbrev S64x64 : Shape := ⟨2, ![64, 64]⟩
abbrev S8x64 : Shape := ⟨2, ![8, 64]⟩
abbrev S8x64x1 : Shape := ⟨3, ![8, 64, 1]⟩
abbrev S1x64x64 : Shape := ⟨3, ![1, 64, 64]⟩
abbrev S8x64x64 : Shape := ⟨3, ![8, 64, 64]⟩
abbrev S8x1x64 : Shape := ⟨3, ![8, 1, 64]⟩
abbrev S500000x8 : Shape := ⟨2, ![500000, 8]⟩
abbrev S10000x64 : Shape := ⟨2, ![10000, 64]⟩
abbrev S10000x8 : Shape := ⟨2, ![10000, 8]⟩
abbrev S10000 : Shape := ⟨1, ![10000]⟩
abbrev S10000x1 : Shape := ⟨2, ![10000, 1]⟩
abbrev S8x500000 : Shape := ⟨2, ![8, 500000]⟩

abbrev nBuf : Space → Nat
  | .hbm => 15
  | .vmem => 7
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S64x64, .f32⟩
  | .hbm, ⟨3, _⟩ => ⟨S8x64, .f32⟩
  | .hbm, ⟨4, _⟩ => ⟨S8x64x1, .f32⟩
  | .hbm, ⟨5, _⟩ => ⟨S1x64x64, .f32⟩
  | .hbm, ⟨6, _⟩ => ⟨S8x64x64, .f32⟩
  | .hbm, ⟨7, _⟩ => ⟨S8x64x64, .f32⟩
  | .hbm, ⟨8, _⟩ => ⟨S8x64x64, .f32⟩
  | .hbm, ⟨9, _⟩ => ⟨S8x1x64, .f32⟩
  | .hbm, ⟨10, _⟩ => ⟨S8x64x64, .f32⟩
  | .hbm, ⟨11, _⟩ => ⟨S8x64x64, .f32⟩
  | .hbm, ⟨12, _⟩ => ⟨S8x64x64, .bf16⟩
  | .hbm, ⟨13, _⟩ => ⟨S500000x8, .f32⟩
  | .hbm, ⟨14, _⟩ => ⟨S8x500000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S8x64x64, .bf16⟩
  | .local _ .vmem, ⟨5, _⟩ => ⟨S10000x8, .f32⟩
  | .local _ .vmem, ⟨6, _⟩ => ⟨S10000x8, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S8x64_S8x64x1_0_1 : S8x64.BroadcastsInDim S8x64x1 (![0, 1] : Fin 2 → Fin S8x64x1.rank)
  bcast_S64x64_S1x64x64_1_2 : S64x64.BroadcastsInDim S1x64x64 (![1, 2] : Fin 2 → Fin S1x64x64.rank)
  bcast_S8x64x1_S8x64x64_0_1_2 : S8x64x1.BroadcastsInDim S8x64x64 (![0, 1, 2] : Fin 3 → Fin S8x64x64.rank)
  bcast_S1x64x64_S8x64x64_0_1_2 : S1x64x64.BroadcastsInDim S8x64x64 (![0, 1, 2] : Fin 3 → Fin S8x64x64.rank)
  bcast_S8x64_S8x1x64_0_2 : S8x64.BroadcastsInDim S8x1x64 (![0, 2] : Fin 2 → Fin S8x1x64.rank)
  bcast_S8x1x64_S8x64x64_0_1_2 : S8x1x64.BroadcastsInDim S8x64x64 (![0, 1, 2] : Fin 3 → Fin S8x64x64.rank)
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  inb_S8x64x64_S1x64x64_0_0_0 : ∀ a, (![0, 0, 0] : Fin 3 → Nat) a + S1x64x64.size a ≤ S8x64x64.size a
  h_S1x64x64 : 0 < S1x64x64.numel
  shapeCasts_S1x64x64_S64x64 : S1x64x64.ShapeCasts S64x64
  reduces_S10000x64_S10000 : S10000x64.Reduces [1] S10000
  shapeCasts_S10000_S10000x1 : S10000.ShapeCasts S10000x1
  inb_S8x64x64_S1x64x64_1_0_0 : ∀ a, (![1, 0, 0] : Fin 3 → Nat) a + S1x64x64.size a ≤ S8x64x64.size a
  inb_S8x64x64_S1x64x64_2_0_0 : ∀ a, (![2, 0, 0] : Fin 3 → Nat) a + S1x64x64.size a ≤ S8x64x64.size a
  inb_S8x64x64_S1x64x64_3_0_0 : ∀ a, (![3, 0, 0] : Fin 3 → Nat) a + S1x64x64.size a ≤ S8x64x64.size a
  inb_S8x64x64_S1x64x64_4_0_0 : ∀ a, (![4, 0, 0] : Fin 3 → Nat) a + S1x64x64.size a ≤ S8x64x64.size a
  inb_S8x64x64_S1x64x64_5_0_0 : ∀ a, (![5, 0, 0] : Fin 3 → Nat) a + S1x64x64.size a ≤ S8x64x64.size a
  inb_S8x64x64_S1x64x64_6_0_0 : ∀ a, (![6, 0, 0] : Fin 3 → Nat) a + S1x64x64.size a ≤ S8x64x64.size a
  inb_S8x64x64_S1x64x64_7_0_0 : ∀ a, (![7, 0, 0] : Fin 3 → Nat) a + S1x64x64.size a ≤ S8x64x64.size a
  concatenates_S10000x1_S10000x1_S10000x1_S10000x1_S10000x1_S10000x1_S10000x1_S10000x1_S10000x8_d1 : Shape.Concatenates [S10000x1, S10000x1, S10000x1, S10000x1, S10000x1, S10000x1, S10000x1, S10000x1] S10000x8 1
  inb_S10000x8_S10000x8_0_0 : ∀ a, (![0, 0] : Fin 2 → Nat) a + S10000x8.size a ≤ S10000x8.size a
  h_S10000x8 : 0 < S10000x8.numel
  transposes_S500000x8_S8x500000_1_0 : S500000x8.Transposes [1, 0] S8x500000
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S500000x64.size a
  hwx0_1 : ∀ i : grid0.Coords, EltTy.bits .f32 = 32 ∨ (Rect.block (s := S500000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64x64.size a ≤ S8x64x64.size a
  hwx0_2 : ∀ i : grid0.Coords, EltTy.bits .bf16 = 32 ∨ (Rect.block (s := S8x64x64) S8x64x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x8.size a ≤ S500000x8.size a
  hwx0_3 : ∀ i : grid0.Coords, EltTy.bits .f32 = 32 ∨ (Rect.block (s := S500000x8) S10000x8.size (cc0_transform_3 i) (hinb0_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S10000x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x64 : Shape := ⟨2, ![500000, 64]⟩
abbrev S64x64 : Shape := ⟨2, ![64, 64]⟩
abbrev S8x64 : Shape := ⟨2, ![8, 64]⟩
abbrev S1x64 : Shape := ⟨2, ![1, 64]⟩
abbrev S64 : Shape := ⟨1, ![64]⟩
abbrev S64x1 : Shape := ⟨2, ![64, 1]⟩
abbrev S_ : Shape := ⟨0, ![]⟩
abbrev S500000 : Shape := ⟨1, ![500000]⟩
abbrev S1x500000 : Shape := ⟨2, ![1, 500000]⟩
abbrev S8x500000 : Shape := ⟨2, ![8, 500000]⟩

abbrev nBuf : Space → Nat
  | .hbm => 173
  | .vmem => 0
  | .smem => 0
  | _ => 0

abbrev hbmTy0_0 (i : Nat) : BufTy := match i % 128 with
  | 0 => ⟨S500000x64, .f32⟩
  | 1 => ⟨S500000x64, .f32⟩
  | 2 => ⟨S64x64, .f32⟩
  | 3 => ⟨S8x64, .f32⟩
  | 4 => ⟨S1x64, .f32⟩
  | 5 => ⟨S64, .f32⟩
  | 6 => ⟨S64x1, .f32⟩
  | 7 => ⟨S64x64, .f32⟩
  | 8 => ⟨S64x64, .f32⟩
  | 9 => ⟨S1x64, .f32⟩
  | 10 => ⟨S64x64, .f32⟩
  | 11 => ⟨S64x64, .f32⟩
  | 12 => ⟨S500000x64, .f32⟩
  | 13 => ⟨S500000x64, .f32⟩
  | 14 => ⟨S_, .f32⟩
  | 15 => ⟨S500000, .f32⟩
  | 16 => ⟨S500000, .f32⟩
  | 17 => ⟨S500000, .f32⟩
  | 18 => ⟨S_, .f32⟩
  | 19 => ⟨S500000, .f32⟩
  | 20 => ⟨S500000, .f32⟩
  | 21 => ⟨S_, .f32⟩
  | 22 => ⟨S500000, .f32⟩
  | 23 => ⟨S500000, .f32⟩
  | 24 => ⟨S1x64, .f32⟩
  | 25 => ⟨S64, .f32⟩
  | 26 => ⟨S64x1, .f32⟩
  | 27 => ⟨S64x64, .f32⟩
  | 28 => ⟨S64x64, .f32⟩
  | 29 => ⟨S1x64, .f32⟩
  | 30 => ⟨S64x64, .f32⟩
  | 31 => ⟨S64x64, .f32⟩
  | 32 => ⟨S500000x64, .f32⟩
  | 33 => ⟨S500000x64, .f32⟩
  | 34 => ⟨S_, .f32⟩
  | 35 => ⟨S500000, .f32⟩
  | 36 => ⟨S500000, .f32⟩
  | 37 => ⟨S500000, .f32⟩
  | 38 => ⟨S_, .f32⟩
  | 39 => ⟨S500000, .f32⟩
  | 40 => ⟨S500000, .f32⟩
  | 41 => ⟨S_, .f32⟩
  | 42 => ⟨S500000, .f32⟩
  | 43 => ⟨S500000, .f32⟩
  | 44 => ⟨S1x64, .f32⟩
  | 45 => ⟨S64, .f32⟩
  | 46 => ⟨S64x1, .f32⟩
  | 47 => ⟨S64x64, .f32⟩
  | 48 => ⟨S64x64, .f32⟩
  | 49 => ⟨S1x64, .f32⟩
  | 50 => ⟨S64x64, .f32⟩
  | 51 => ⟨S64x64, .f32⟩
  | 52 => ⟨S500000x64, .f32⟩
  | 53 => ⟨S500000x64, .f32⟩
  | 54 => ⟨S_, .f32⟩
  | 55 => ⟨S500000, .f32⟩
  | 56 => ⟨S500000, .f32⟩
  | 57 => ⟨S500000, .f32⟩
  | 58 => ⟨S_, .f32⟩
  | 59 => ⟨S500000, .f32⟩
  | 60 => ⟨S500000, .f32⟩
  | 61 => ⟨S_, .f32⟩
  | 62 => ⟨S500000, .f32⟩
  | 63 => ⟨S500000, .f32⟩
  | 64 => ⟨S1x64, .f32⟩
  | 65 => ⟨S64, .f32⟩
  | 66 => ⟨S64x1, .f32⟩
  | 67 => ⟨S64x64, .f32⟩
  | 68 => ⟨S64x64, .f32⟩
  | 69 => ⟨S1x64, .f32⟩
  | 70 => ⟨S64x64, .f32⟩
  | 71 => ⟨S64x64, .f32⟩
  | 72 => ⟨S500000x64, .f32⟩
  | 73 => ⟨S500000x64, .f32⟩
  | 74 => ⟨S_, .f32⟩
  | 75 => ⟨S500000, .f32⟩
  | 76 => ⟨S500000, .f32⟩
  | 77 => ⟨S500000, .f32⟩
  | 78 => ⟨S_, .f32⟩
  | 79 => ⟨S500000, .f32⟩
  | 80 => ⟨S500000, .f32⟩
  | 81 => ⟨S_, .f32⟩
  | 82 => ⟨S500000, .f32⟩
  | 83 => ⟨S500000, .f32⟩
  | 84 => ⟨S1x64, .f32⟩
  | 85 => ⟨S64, .f32⟩
  | 86 => ⟨S64x1, .f32⟩
  | 87 => ⟨S64x64, .f32⟩
  | 88 => ⟨S64x64, .f32⟩
  | 89 => ⟨S1x64, .f32⟩
  | 90 => ⟨S64x64, .f32⟩
  | 91 => ⟨S64x64, .f32⟩
  | 92 => ⟨S500000x64, .f32⟩
  | 93 => ⟨S500000x64, .f32⟩
  | 94 => ⟨S_, .f32⟩
  | 95 => ⟨S500000, .f32⟩
  | 96 => ⟨S500000, .f32⟩
  | 97 => ⟨S500000, .f32⟩
  | 98 => ⟨S_, .f32⟩
  | 99 => ⟨S500000, .f32⟩
  | 100 => ⟨S500000, .f32⟩
  | 101 => ⟨S_, .f32⟩
  | 102 => ⟨S500000, .f32⟩
  | 103 => ⟨S500000, .f32⟩
  | 104 => ⟨S1x64, .f32⟩
  | 105 => ⟨S64, .f32⟩
  | 106 => ⟨S64x1, .f32⟩
  | 107 => ⟨S64x64, .f32⟩
  | 108 => ⟨S64x64, .f32⟩
  | 109 => ⟨S1x64, .f32⟩
  | 110 => ⟨S64x64, .f32⟩
  | 111 => ⟨S64x64, .f32⟩
  | 112 => ⟨S500000x64, .f32⟩
  | 113 => ⟨S500000x64, .f32⟩
  | 114 => ⟨S_, .f32⟩
  | 115 => ⟨S500000, .f32⟩
  | 116 => ⟨S500000, .f32⟩
  | 117 => ⟨S500000, .f32⟩
  | 118 => ⟨S_, .f32⟩
  | 119 => ⟨S500000, .f32⟩
  | 120 => ⟨S500000, .f32⟩
  | 121 => ⟨S_, .f32⟩
  | 122 => ⟨S500000, .f32⟩
  | 123 => ⟨S500000, .f32⟩
  | 124 => ⟨S1x64, .f32⟩
  | 125 => ⟨S64, .f32⟩
  | 126 => ⟨S64x1, .f32⟩
  | 127 => ⟨S64x64, .f32⟩
  | _ => ⟨S500000x64, .f32⟩

abbrev hbmTy0_1 (i : Nat) : BufTy := match i % 128 with
  | 0 => ⟨S64x64, .f32⟩
  | 1 => ⟨S1x64, .f32⟩
  | 2 => ⟨S64x64, .f32⟩
  | 3 => ⟨S64x64, .f32⟩
  | 4 => ⟨S500000x64, .f32⟩
  | 5 => ⟨S500000x64, .f32⟩
  | 6 => ⟨S_, .f32⟩
  | 7 => ⟨S500000, .f32⟩
  | 8 => ⟨S500000, .f32⟩
  | 9 => ⟨S500000, .f32⟩
  | 10 => ⟨S_, .f32⟩
  | 11 => ⟨S500000, .f32⟩
  | 12 => ⟨S500000, .f32⟩
  | 13 => ⟨S_, .f32⟩
  | 14 => ⟨S500000, .f32⟩
  | 15 => ⟨S500000, .f32⟩
  | 16 => ⟨S1x64, .f32⟩
  | 17 => ⟨S64, .f32⟩
  | 18 => ⟨S64x1, .f32⟩
  | 19 => ⟨S64x64, .f32⟩
  | 20 => ⟨S64x64, .f32⟩
  | 21 => ⟨S1x64, .f32⟩
  | 22 => ⟨S64x64, .f32⟩
  | 23 => ⟨S64x64, .f32⟩
  | 24 => ⟨S500000x64, .f32⟩
  | 25 => ⟨S500000x64, .f32⟩
  | 26 => ⟨S_, .f32⟩
  | 27 => ⟨S500000, .f32⟩
  | 28 => ⟨S500000, .f32⟩
  | 29 => ⟨S500000, .f32⟩
  | 30 => ⟨S_, .f32⟩
  | 31 => ⟨S500000, .f32⟩
  | 32 => ⟨S500000, .f32⟩
  | 33 => ⟨S_, .f32⟩
  | 34 => ⟨S500000, .f32⟩
  | 35 => ⟨S500000, .f32⟩
  | 36 => ⟨S1x500000, .f32⟩
  | 37 => ⟨S1x500000, .f32⟩
  | 38 => ⟨S1x500000, .f32⟩
  | 39 => ⟨S1x500000, .f32⟩
  | 40 => ⟨S1x500000, .f32⟩
  | 41 => ⟨S1x500000, .f32⟩
  | 42 => ⟨S1x500000, .f32⟩
  | 43 => ⟨S1x500000, .f32⟩
  | 44 => ⟨S8x500000, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_11 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_12 : Ref sig .tc := ⟨.hbm, 98, rfl⟩
abbrev main_v81 : Ref sig .tc := ⟨.hbm, 99, rfl⟩
abbrev main_v82 : Ref sig .tc := ⟨.hbm, 100, rfl⟩
abbrev main_cst_13 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_14 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_15 : Ref sig .tc := ⟨.hbm, 118, rfl⟩
abbrev main_v98 : Ref sig .tc := ⟨.hbm, 119, rfl⟩
abbrev main_v99 : Ref sig .tc := ⟨.hbm, 120, rfl⟩
abbrev main_cst_16 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_17 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_18 : Ref sig .tc := ⟨.hbm, 138, rfl⟩
abbrev main_v115 : Ref sig .tc := ⟨.hbm, 139, rfl⟩
abbrev main_v116 : Ref sig .tc := ⟨.hbm, 140, rfl⟩
abbrev main_cst_19 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_20 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_21 : Ref sig .tc := ⟨.hbm, 158, rfl⟩
abbrev main_v132 : Ref sig .tc := ⟨.hbm, 159, rfl⟩
abbrev main_v133 : Ref sig .tc := ⟨.hbm, 160, rfl⟩
abbrev main_cst_22 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩

abbrev nD : Nat := 1
abbrev τ : Topo := Topo.v7x

variable {F : FTy → Type} [FloatOps F]

class Facts₀ : Prop where
  slices_S8x64_S1x64_0_0 : S8x64.Slices ![0, 0] S1x64
  shapeCasts_S1x64_S64 : S1x64.ShapeCasts S64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S500000x64_S500000_d1 : S500000x64.ReducesTo [1] S500000
  h_S_ : 0 < S_.numel
  bcast_S_S500000 : S_.BroadcastsInDim S500000 (![] : Fin 0 → Fin S500000.rank)
  slices_S8x64_S1x64_1_0 : S8x64.Slices ![1, 0] S1x64
  slices_S8x64_S1x64_2_0 : S8x64.Slices ![2, 0] S1x64
  slices_S8x64_S1x64_3_0 : S8x64.Slices ![3, 0] S1x64
  slices_S8x64_S1x64_4_0 : S8x64.Slices ![4, 0] S1x64
  slices_S8x64_S1x64_5_0 : S8x64.Slices ![5, 0] S1x64
  slices_S8x64_S1x64_6_0 : S8x64.Slices ![6, 0] S1x64
  slices_S8x64_S1x64_7_0 : S8x64.Slices ![7, 0] S1x64
  bcast_S500000_S1x500000_1 : S500000.BroadcastsInDim S1x500000 (![1] : Fin 1 → Fin S1x500000.rank)
  concatenates_S1x500000_S1x500000_S1x500000_S1x500000_S1x500000_S1x500000_S1x500000_S1x500000_S8x500000_d0 : Shape.Concatenates [S1x500000, S1x500000, S1x500000, S1x500000, S1x500000, S1x500000, S1x500000, S1x500000] S8x500000 0
  dot_S500000x64_S64x64_S500000x64_1_0_0_1_n_n_wf : DotDims.WF S500000x64 S64x64 S500000x64 [1] [0] [0] [1] [] []

variable [Facts₀]

def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf

class Facts : Prop extends Facts₀ where

variable [Facts]
-- ==== Proof.Spec.lean ====
/-
  The function both programs compute, stated once over the argument arrays.

  Inputs: `row`, `col` : [500000, 64], a square matrix `g` : [64, 64] and eight scaling vectors `d` : [8, 64].
  For relation `k` the matrix is  M_k = diag(d_k) · g · diag(d_k),  entry (i, j) = (d_k[i] · g[i, j]) · d_k[j],
  and the result at (k, n) is the logistic function of the bilinear form

      row[n, ·] · M_k · col[n, ·]  =  ∑ j, (∑ i, row[n, i] · M_k[i, j]) · col[n, j].

  Everything is over the extended reals with the grouping and order of the products exactly as written here, which is
  the grouping both programs use; no law of the reals beyond `0 - x = -x` is needed to join them, so finiteness of the
  inputs is never used.
-/
import Idealize.ShloMosaic.PureOps.Ideal
import Idealize.ShloMosaic.PureOps.Ideal.Laws
import Idealize.ShloMosaic.Lib.ValueIdx

noncomputable section

namespace Cert.RelScore

open Idealize.ShloMosaic Idealize.ShloMosaic.ValueIdx

/-- The logistic function as both programs spell it, `1 / (1 + e^(-x))`, the literal `1.0` kept as its word (the same
    word on both sides, never evaluated). -/
def sigm (x : EReal) : EReal :=
  Ideal.div (Ideal.ofBits .f32 0x3F800000#32) (Ideal.ofBits .f32 0x3F800000#32 + Ideal.exp (-x))

/-- The bilinear form `r · M · c` of two vectors of length 64, summed as `∑ j, (∑ i, r i · M i j) · c j`. -/
def bilin (r c : Fin 64 → EReal) (M : Fin 64 → Fin 64 → EReal) : EReal :=
  ∑ j : Fin 64, (∑ i : Fin 64, r i * M i j) * c j

/-- Relation `k`'s matrix `diag(d_k) · g · diag(d_k)`: rows scaled first, then columns. -/
def relMat (g : (⟨2, ![64, 64]⟩ : Shape).Idx → EReal) (d : (⟨2, ![8, 64]⟩ : Shape).Idx → EReal)
    (k : Fin 8) (i j : Fin 64) : EReal :=
  d (ix2 k i) * g (ix2 i j) * d (ix2 k j)

/-- The score of pair `n` under relation `k`. -/
def scoreAt (row col : (⟨2, ![500000, 64]⟩ : Shape).Idx → EReal) (g : (⟨2, ![64, 64]⟩ : Shape).Idx → EReal)
    (d : (⟨2, ![8, 64]⟩ : Shape).Idx → EReal) (k : Fin 8) (n : Fin 500000) : EReal :=
  sigm (bilin (fun i => row (ix2 n i)) (fun j => col (ix2 n j)) (relMat g d k))

/-- The result array, [8, 500000]: relation by pair. -/
def score (row col : (⟨2, ![500000, 64]⟩ : Shape).Idx → EReal) (g : (⟨2, ![64, 64]⟩ : Shape).Idx → EReal)
    (d : (⟨2, ![8, 64]⟩ : Shape).Idx → EReal) : (⟨2, ![8, 500000]⟩ : Shape).Idx → EReal :=
  fun q => scoreAt row col g d (q 0) (q 1)

/-- The same numbers laid out pair by relation, [500000, 8]: what the kernel's region writes before the transpose. -/
def scoreT (row col : (⟨2, ![500000, 64]⟩ : Shape).Idx → EReal) (g : (⟨2, ![64, 64]⟩ : Shape).Idx → EReal)
    (d : (⟨2, ![8, 64]⟩ : Shape).Idx → EReal) : (⟨2, ![500000, 8]⟩ : Shape).Idx → EReal :=
  fun q => scoreAt row col g d (q 1) (q 0)

theorem score_ix2 (row col : (⟨2, ![500000, 64]⟩ : Shape).Idx → EReal) (g : (⟨2, ![64, 64]⟩ : Shape).Idx → EReal)
    (d : (⟨2, ![8, 64]⟩ : Shape).Idx → EReal) (k : Fin 8) (n : Fin 500000) :
    score row col g d (ix2 k n) = scoreAt row col g d k n := rfl

theorem scoreT_ix2 (row col : (⟨2, ![500000, 64]⟩ : Shape).Idx → EReal) (g : (⟨2, ![64, 64]⟩ : Shape).Idx → EReal)
    (d : (⟨2, ![8, 64]⟩ : Shape).Idx → EReal) (n : Fin 500000) (k : Fin 8) :
    scoreT row col g d (ix2 n k) = scoreAt row col g d k n := rfl

/-- `0 - x`, the kernel's spelling of negation, is `-x` on every extended real. -/
theorem sigm_zero_sub (x : EReal) :
    Ideal.div (Ideal.ofBits .f32 0x3F800000#32) (Ideal.ofBits .f32 0x3F800000#32 + Ideal.exp (Ideal.ofBits .f32 0x00000000#32 - x))
      = sigm x := by
  unfold sigm
  rw [Ideal.ofBits_zero_f32, zero_sub]

end Cert.RelScore

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelBody.lean ====
/-
  What one grid point of the kernel writes, read at an index.

  The body holds a block of 10000 rows of `row` and of `col` and the eight relation matrices `M_0 … M_7` ([8, 64, 64]).
  For each relation it forms the product `row_block · M_k` ([10000, 64]), multiplies it entrywise by `col_block`, sums
  each row, and lays the eight column vectors side by side; the logistic function `1 / (1 + e^(0 - x))` is applied to
  the [10000, 8] result. So the entry (p, k) of the block written is

      sigm (∑ j, (∑ i, row_block[p, i] · M_k[i, j]) · col_block[p, j]).

  The three pieces the body repeats are named here (a relation's product with `col`, a row sum kept as a column, the
  eight columns joined and squashed), each is read at an index once, and the body's stored value is assembled from
  them. The narrowing of `row` to a shorter float format is the identity on the extended reals.
-/
import proofs.«158541_j6305011990646_1_alg».proof.Proof.Gen.KernelIdeal.Frame
import proofs.«158541_j6305011990646_1_alg».proof.Proof.Spec
import proofs.«158541_j6305011990646_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Body

open Cert.KernelIdeal Cert.KernelIdeal.Gen Idealize.ShloMosaic Idealize.ShloMosaic.TcCoe Idealize.ShloMosaic.ValueIdx
open Idealize.SL.Sem

/-! ## The body's three repeated pieces -/

section Pieces

variable {F : FTy → Type} [FloatOps F]

/-- One relation's product `row_block · M` (into a zero accumulator), times `col_block` entry by entry. -/
def prodTerm (rowb : FVec F S10000x64 .bf16) (col : Vec F S10000x64 .f32) (slab : Vec F S1x64x64 .bf16) : FVec F S10000x64 .f32 :=
  mulf (matmul dot_S10000x64_S64x64_S10000x64_1_0_0_1_n_n none rowb (shapeCast S64x64 slab shapeCasts_S1x64x64_S64x64) (constant S10000x64 .f32 0x00000000#32)) col

/-- The sum of each row, kept as a column [10000, 1]. -/
def rowSum (P : FVec F S10000x64 .f32) : FVec F S10000x1 .f32 :=
  shapeCast S10000x1 (multiReduction .add [1] S10000 P 0x00000000#32 reduces_S10000x64_S10000 (.inl rfl) rfl) shapeCasts_S10000_S10000x1

/-- Eight columns side by side, then `1 / (1 + e^(0 - x))` entry by entry. -/
def squash (c0 c1 c2 c3 c4 c5 c6 c7 : FVec F S10000x1 .f32) : FVec F S10000x8 .f32 :=
  divf (broadcast S10000x8 (Scalar.ofBits .f32 0x3F800000#32))
    (addf (broadcast S10000x8 (Scalar.ofBits .f32 0x3F800000#32))
      (exp (subf (broadcast S10000x8 (Scalar.ofBits .f32 0x00000000#32))
        (concatenate S10000x8 1 [⟨S10000x1, c0⟩, ⟨S10000x1, c1⟩, ⟨S10000x1, c2⟩, ⟨S10000x1, c3⟩, ⟨S10000x1, c4⟩, ⟨S10000x1, c5⟩, ⟨S10000x1, c6⟩, ⟨S10000x1, c7⟩]
          concatenates_S10000x1_S10000x1_S10000x1_S10000x1_S10000x1_S10000x1_S10000x1_S10000x1_S10000x8_d1))))

/-- The first four relations' columns are a row sum of a product each. -/
theorem pay3_eq (v0 v2 : Vec F S10000x64 .f32) (v3 : Vec F S1x64x64 .bf16) : k0_pay3 v0 v2 v3 = rowSum (prodTerm (k0_pay2 v0) v2 v3) := rfl
theorem pay4_eq (v0 v2 : Vec F S10000x64 .f32) (v3 : Vec F S1x64x64 .bf16) : k0_pay4 v0 v2 v3 = rowSum (prodTerm (k0_pay2 v0) v2 v3) := rfl
theorem pay5_eq (v0 v2 : Vec F S10000x64 .f32) (v3 : Vec F S1x64x64 .bf16) : k0_pay5 v0 v2 v3 = rowSum (prodTerm (k0_pay2 v0) v2 v3) := rfl
theorem pay6_eq (v0 v2 : Vec F S10000x64 .f32) (v3 : Vec F S1x64x64 .bf16) : k0_pay6 v0 v2 v3 = rowSum (prodTerm (k0_pay2 v0) v2 v3) := rfl
/-- The fifth relation's product, its row sum still to come. -/
theorem pay7_eq (v0 v2 : Vec F S10000x64 .f32) (v3 : Vec F S1x64x64 .bf16) : k0_pay7 v0 v2 v3 = prodTerm (k0_pay2 v0) v2 v3 := rfl
/-- The stored value: the four columns found, the fifth product's row sum, the last three relations' columns, joined and squashed. -/
theorem pay1_eq (v1 : FVec F S10000x64 .bf16) (v2 : Vec F S10000x64 .f32) (v8 v14 v20 v26 : FVec F S10000x1 .f32)
    (v30 : FVec F S10000x64 .f32) (v33 v39 v45 : Vec F S1x64x64 .bf16) :
    k0_pay1 v1 v2 v8 v14 v20 v26 v30 v33 v39 v45
      = squash v8 v14 v20 v26 (rowSum v30) (rowSum (prodTerm v1 v2 v33)) (rowSum (prodTerm v1 v2 v39)) (rowSum (prodTerm v1 v2 v45)) := rfl

end Pieces

/-! ## The pieces at an index, on the extended reals -/

/-- The matrix product's dimension numbers are the plain ones: rows from the left, columns from the right. -/
theorem plain_dot : Cert.PlainDot.Plain dot_S10000x64_S64x64_S10000x64_1_0_0_1_n_n := ⟨rfl, rfl, rfl, rfl, rfl, rfl⟩

/-- A vector [a] cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A relation's product with `col`, at (p, j): `(∑ i, row[p, i] · M[i, j]) · col[p, j]`. -/
theorem prodTerm_apply (rowb : FVec Ideal S10000x64 .bf16) (col : Vec Ideal S10000x64 .f32) (slab : Vec Ideal S1x64x64 .bf16)
    (p : Fin 10000) (j : Fin 64) :
    prodTerm (F := Ideal) rowb col slab (ix2 p j) = (∑ i : Fin 64, rowb (ix2 p i) * slab (ix3 (0 : Fin 1) i j)) * col (ix2 p j) := by
  unfold prodTerm
  refine congrArg (· * col (ix2 p j)) ?_
  refine (Cert.PlainDot.matmul_zero_apply plain_dot rfl rfl none rowb _ p j).trans ?_
  refine Finset.sum_congr rfl fun i _ => congrArg (rowb (ix2 p i) * ·) ?_
  exact shapeCast_1ab_ab_apply slab shapeCasts_S1x64x64_S64x64 i j

/-- A row sum kept as a column, at (p, u): the sum of row p. -/
theorem rowSum_apply (P : FVec Ideal S10000x64 .f32) (p : Fin 10000) (u : Fin 1) :
    rowSum (F := Ideal) P (ix2 p u) = ∑ j : Fin 64, P (ix2 p j) := by
  unfold rowSum
  refine (shapeCast_a_a1_apply _ shapeCasts_S10000_S10000x1 p u).trans ?_
  refine (Ideal.multiReduction_add_single P 0x00000000#32 reduces_S10000x64_S10000 (.inl rfl) rfl (ix1 p)).trans ?_
  refine Finset.sum_congr rfl fun j _ => congrArg P ?_
  exact funext fun a => Fin.ext (by match a with | ⟨0, _⟩ => rfl | ⟨1, _⟩ => rfl)

/-- A relation's column at row p: the bilinear form of row p of `row`, the relation's matrix and row p of `col`. -/
theorem column_apply (rowb : FVec Ideal S10000x64 .bf16) (col : Vec Ideal S10000x64 .f32) (slab : Vec Ideal S1x64x64 .bf16)
    (p : Fin 10000) (u : Fin 1) :
    rowSum (F := Ideal) (prodTerm (F := Ideal) rowb col slab) (ix2 p u)
      = Cert.RelScore.bilin (fun i => rowb (ix2 p i)) (fun j => col (ix2 p j)) (fun i j => slab (ix3 (0 : Fin 1) i j)) := by
  refine (rowSum_apply _ p u).trans ?_
  unfold Cert.RelScore.bilin
  exact Finset.sum_congr rfl fun j _ => prodTerm_apply rowb col slab p j

/-- Eight columns as the list a concatenation takes. -/
abbrev colList (c : Fin 8 → FVec Ideal S10000x1 .f32) : List ((s : Shape) × (s.Idx → EReal)) :=
  [⟨S10000x1, c 0⟩, ⟨S10000x1, c 1⟩, ⟨S10000x1, c 2⟩, ⟨S10000x1, c 3⟩, ⟨S10000x1, c 4⟩, ⟨S10000x1, c 5⟩, ⟨S10000x1, c 6⟩, ⟨S10000x1, c 7⟩]

/-- Eight columns side by side: at (p, k) the k-th column's entry p. -/
theorem columns_apply (c : Fin 8 → FVec Ideal S10000x1 .f32) (p : Fin 10000) (k : Fin 8) :
    concatenate S10000x8 1 (colList c)
        concatenates_S10000x1_S10000x1_S10000x1_S10000x1_S10000x1_S10000x1_S10000x1_S10000x1_S10000x8_d1 (ix2 p k)
      = c k (ix2 p (0 : Fin 1)) := by
  have hi : ∀ (q : Fin 8) (hr : S10000x1.rank = S10000x8.rank) (b : Fin S10000x1.rank), b.cast hr ≠ (1 : Fin S10000x8.rank) →
      ((ix2 p (0 : Fin 1) : S10000x1.Idx) b).val = ((ix2 p q : S10000x8.Idx) (b.cast hr)).val :=
    fun q hr b hb => match b, hb with
      | ⟨0, _⟩, _ => rfl
      | ⟨1, _⟩, hb => absurd (Fin.ext rfl) hb
  match k with
  | ⟨0, _⟩ => exact concatenate_apply_piece 1 (colList c) concatenates_S10000x1_S10000x1_S10000x1_S10000x1_S10000x1_S10000x1_S10000x1_S10000x1_S10000x8_d1 (ix2 p _) 0 (by show (0 : Nat) < 8; decide) S10000x1 (c 0) rfl rfl 0 rfl (ix2 p 0) (hi _ rfl) rfl
  | ⟨1, _⟩ => exact concatenate_apply_piece 1 (colList c) concatenates_S10000x1_S10000x1_S10000x1_S10000x1_S10000x1_S10000x1_S10000x1_S10000x1_S10000x8_d1 (ix2 p _) 1 (by show (1 : Nat) < 8; decide) S10000x1 (c 1) rfl rfl 1 rfl (ix2 p 0) (hi _ rfl) rfl
  | ⟨2, _⟩ => exact concatenate_apply_piece 1 (colList c) concatenates_S10000x1_S10000x1_S10000x1_S10000x1_S10000x1_S10000x1_S10000x1_S10000x1_S10000x8_d1 (ix2 p _) 2 (by show (2 : Nat) < 8; decide) S10000x1 (c 2) rfl rfl 2 rfl (ix2 p 0) (hi _ rfl) rfl
  | ⟨3, _⟩ => exact concatenate_apply_piece 1 (colList c) concatenates_S10000x1_S10000x1_S10000x1_S10000x1_S10000x1_S10000x1_S10000x1_S10000x1_S10000x8_d1 (ix2 p _) 3 (by show (3 : Nat) < 8; decide) S10000x1 (c 3) rfl rfl 3 rfl (ix2 p 0) (hi _ rfl) rfl
  | ⟨4, _⟩ => exact concatenate_apply_piece 1 (colList c) concatenates_S10000x1_S10000x1_S10000x1_S10000x1_S10000x1_S10000x1_S10000x1_S10000x1_S10000x8_d1 (ix2 p _) 4 (by show (4 : Nat) < 8; decide) S10000x1 (c 4) rfl rfl 4 rfl (ix2 p 0) (hi _ rfl) rfl
  | ⟨5, _⟩ => exact concatenate_apply_piece 1 (colList c) concatenates_S10000x1_S10000x1_S10000x1_S10000x1_S10000x1_S10000x1_S10000x1_S10000x1_S10000x8_d1 (ix2 p _) 5 (by show (5 : Nat) < 8; decide) S10000x1 (c 5) rfl rfl 5 rfl (ix2 p 0) (hi _ rfl) rfl
  | ⟨6, _⟩ => exact concatenate_apply_piece 1 (colList c) concatenates_S10000x1_S10000x1_S10000x1_S10000x1_S10000x1_S10000x1_S10000x1_S10000x1_S10000x8_d1 (ix2 p _) 6 (by show (6 : Nat) < 8; decide) S10000x1 (c 6) rfl rfl 6 rfl (ix2 p 0) (hi _ rfl) rfl
  | ⟨7, _⟩ => exact concatenate_apply_piece 1 (colList c) concatenates_S10000x1_S10000x1_S10000x1_S10000x1_S10000x1_S10000x1_S10000x1_S10000x1_S10000x8_d1 (ix2 p _) 7 (by show (7 : Nat) < 8; decide) S10000x1 (c 7) rfl rfl 7 rfl (ix2 p 0) (hi _ rfl) rfl

/-- The eight columns joined and squashed, at (p, k): the logistic function of the k-th column's entry p
    (`0 - x` is `-x`). -/
theorem squash_apply (c : Fin 8 → FVec Ideal S10000x1 .f32) (p : Fin 10000) (k : Fin 8) :
    squash (F := Ideal) (c 0) (c 1) (c 2) (c 3) (c 4) (c 5) (c 6) (c 7) (ix2 p k) = Cert.RelScore.sigm (c k (ix2 p (0 : Fin 1))) :=
  (congrArg (fun z => Ideal.div (Ideal.ofBits .f32 0x3F800000#32) (Ideal.ofBits .f32 0x3F800000#32 + Ideal.exp (Ideal.ofBits .f32 0x00000000#32 - z)))
    (columns_apply c p k)).trans (Cert.RelScore.sigm_zero_sub _)

/-! ## The relation matrices' slabs -/

section Slab

variable {F : FTy → Type} [FloatOps F]

/-- Relation `k`'s matrix out of the [8, 64, 64] array, kept with its unit axis. -/
def slab (x2 : Vec F S8x64x64 .bf16) (k : Fin 8) : Vec F S1x64x64 .bf16 := fun y => x2 (ix3 k (y 1) (y 2))

/-- A load of the [1, 64, 64] rectangle at offset (k, 0, 0) is relation `k`'s slab. -/
theorem ld_slab (x2 : Vec F S8x64x64 .bf16) (k : Nat) (hk : k < 8) (inb) :
    View.ld x2 (Rect.unit (s := S8x64x64) ![k, 0, 0] S1x64x64.size inb) = slab x2 ⟨k, hk⟩ := by
  funext y
  show x2 _ = x2 _
  refine congrArg x2 (funext fun a => Fin.ext ?_)
  match a with
  | ⟨0, _⟩ => show k + 1 * (y 0).val = k; have h0 : (y 0).val < 1 := (y 0).isLt; omega
  | ⟨1, _⟩ => show 0 + 1 * (y 1).val = (y 1).val; omega
  | ⟨2, _⟩ => show 0 + 1 * (y 2).val = (y 2).val; omega

end Slab

/-! ## The block a grid point writes -/

theorem hz2 : (![0, 0] : Fin 2 → Nat) = fun _ => 0 := funext fun a => by fin_cases a <;> rfl

/-- WHAT A POINT LEAVES IN THE OUTPUT BLOCK, at (p, k): the logistic function of the bilinear form of row p of the
    `row` block, relation k's matrix and row p of the `col` block. -/
theorem block_apply (x0 x1 : Vec Ideal S10000x64 .f32) (x2 : Vec Ideal S8x64x64 .bf16) (p : Fin 10000) (k : Fin 8) :
    out0_3 (F := Ideal) x0 x1 x2 (ix2 p k)
      = Cert.RelScore.sigm (Cert.RelScore.bilin (fun i => x0 (ix2 p i)) (fun j => x1 (ix2 p j)) (fun i j => x2 (ix3 k i j))) := by
  unfold out0_3
  rw [View.canon_unit_zero hz2]
  simp only [View.ld_unit_zero (S := S10000x64) hz2]
  rw [pay1_eq, pay3_eq, pay4_eq, pay5_eq, pay6_eq, pay7_eq]
  rw [ld_slab x2 0 (by decide), ld_slab x2 1 (by decide), ld_slab x2 2 (by decide), ld_slab x2 3 (by decide),
    ld_slab x2 4 (by decide), ld_slab x2 5 (by decide), ld_slab x2 6 (by decide), ld_slab x2 7 (by decide)]
  refine (squash_apply (fun q => rowSum (prodTerm (k0_pay2 x0) x1 (slab x2 q))) p k).trans ?_
  exact congrArg Cert.RelScore.sigm (column_apply (k0_pay2 x0) x1 (slab x2 k) p 0)

end Cert.KernelIdeal.Body

end
-- ==== Proof.KernelArray.lean ====
/-
  From one grid point's block to the whole result.

  The region runs 50 points; point t holds rows 10000·t … 10000·t + 9999 of `row` and of `col`, all eight relation
  matrices, and writes rows 10000·t … of a [500000, 8] array. The relation matrices are built before the region by
  the host: `M[k, i, j] = (d[k, i] · g[i, j]) · d[k, j]` (two broadcasts and a product, a third broadcast and a product).
  After the region the host transposes the [500000, 8] array to [8, 500000].

  So: the block a point writes is its block of `scoreT` of the argument arrays; the 50 blocks tile the array; the array
  ends at `scoreT`, and its transpose is `score`.
-/
import proofs.«158541_j6305011990646_1_alg».proof.Proof.KernelBody
import Idealize.ShloMosaic.Lib.StableHlo.Run
import Idealize.ShloMosaic.Lib.Tactic

set_option synthInstance.maxSize 4096
set_option maxRecDepth 16384

noncomputable section

namespace Cert.KernelIdeal.Arr

open Cert.KernelIdeal Cert.KernelIdeal.Gen Cert.KernelIdeal.Body Idealize.ShloMosaic Idealize.ShloMosaic.TcCoe Idealize.ShloMosaic.ValueIdx
open Idealize.SL.Sem Idealize.ShloMosaic.StableHlo
open Idealize.ShloMosaic.Pipeline (Dat)
open Cert.RelScore

/-! ## The relation matrices as the host builds them -/

section Host

variable {F : FTy → Type} [FloatOps F]

/-- `(d ⊗ 1 · 1 ⊗ g) · 1 ⊗ d` over [8, 64, 64], then narrowed (the identity on the extended reals). -/
def relHost (g : Vec F S64x64 .f32) (d : Vec F S8x64 .f32) : Vec F S8x64x64 .bf16 :=
  truncf .bf16 (mulf (mulf
      (broadcastInDim S8x64x64 ![0, 1, 2] bcast_S8x64x1_S8x64x64_0_1_2 (broadcastInDim S8x64x1 ![0, 1] bcast_S8x64_S8x64x1_0_1 d))
      (broadcastInDim S8x64x64 ![0, 1, 2] bcast_S1x64x64_S8x64x64_0_1_2 (broadcastInDim S1x64x64 ![1, 2] bcast_S64x64_S1x64x64_1_2 g)))
      (broadcastInDim S8x64x64 ![0, 1, 2] bcast_S8x1x64_S8x64x64_0_1_2 (broadcastInDim S8x1x64 ![0, 2] bcast_S8x64_S8x1x64_0_2 d))) bitsLt_bf16_f32

end Host

/-- At (k, i, j) it is `(d[k, i] · g[i, j]) · d[k, j]`. -/
theorem relHost_apply (g : Vec Ideal S64x64 .f32) (d : Vec Ideal S8x64 .f32) (k : Fin 8) (i j : Fin 64) :
    relHost (F := Ideal) g d (ix3 k i j) = relMat g d k i j := by
  unfold relHost relMat
  show (broadcastInDim S8x64x64 ![0, 1, 2] bcast_S8x64x1_S8x64x64_0_1_2 (broadcastInDim S8x64x1 ![0, 1] bcast_S8x64_S8x64x1_0_1 d) (ix3 k i j)
      * broadcastInDim S8x64x64 ![0, 1, 2] bcast_S1x64x64_S8x64x64_0_1_2 (broadcastInDim S1x64x64 ![1, 2] bcast_S64x64_S1x64x64_1_2 g) (ix3 k i j))
      * broadcastInDim S8x64x64 ![0, 1, 2] bcast_S8x1x64_S8x64x64_0_1_2 (broadcastInDim S8x1x64 ![0, 2] bcast_S8x64_S8x1x64_0_2 d) (ix3 k i j) = _
  have e1 : broadcastInDim S8x64x64 ![0, 1, 2] bcast_S8x64x1_S8x64x64_0_1_2 (broadcastInDim S8x64x1 ![0, 1] bcast_S8x64_S8x64x1_0_1 d) (ix3 k i j) = d (ix2 k i) :=
    (broadcastInDim_apply _ bcast_S8x64x1_S8x64x64_0_1_2 _ (ix3 k i j) (ix3 k i (0 : Fin 1)) (fun a => match a with
      | ⟨0, _⟩ => by show k.val = if (8 : Nat) = 1 then 0 else k.val; rw [if_neg (by decide)]
      | ⟨1, _⟩ => by show i.val = if (64 : Nat) = 1 then 0 else i.val; rw [if_neg (by decide)]
      | ⟨2, _⟩ => by show 0 = if (1 : Nat) = 1 then 0 else j.val; rw [if_pos rfl])).trans
    (broadcastInDim_apply _ bcast_S8x64_S8x64x1_0_1 d (ix3 k i (0 : Fin 1)) (ix2 k i) (fun a => match a with
      | ⟨0, _⟩ => by show k.val = if (8 : Nat) = 1 then 0 else k.val; rw [if_neg (by decide)]
      | ⟨1, _⟩ => by show i.val = if (64 : Nat) = 1 then 0 else i.val; rw [if_neg (by decide)]))
  have e2 : broadcastInDim S8x64x64 ![0, 1, 2] bcast_S1x64x64_S8x64x64_0_1_2 (broadcastInDim S1x64x64 ![1, 2] bcast_S64x64_S1x64x64_1_2 g) (ix3 k i j) = g (ix2 i j) :=
    (broadcastInDim_apply _ bcast_S1x64x64_S8x64x64_0_1_2 _ (ix3 k i j) (ix3 (0 : Fin 1) i j) (fun a => match a with
      | ⟨0, _⟩ => by show 0 = if (1 : Nat) = 1 then 0 else k.val; rw [if_pos rfl]
      | ⟨1, _⟩ => by show i.val = if (64 : Nat) = 1 then 0 else i.val; rw [if_neg (by decide)]
      | ⟨2, _⟩ => by show j.val = if (64 : Nat) = 1 then 0 else j.val; rw [if_neg (by decide)])).trans
    (broadcastInDim_apply _ bcast_S64x64_S1x64x64_1_2 g (ix3 (0 : Fin 1) i j) (ix2 i j) (fun a => match a with
      | ⟨0, _⟩ => by show i.val = if (64 : Nat) = 1 then 0 else i.val; rw [if_neg (by decide)]
      | ⟨1, _⟩ => by show j.val = if (64 : Nat) = 1 then 0 else j.val; rw [if_neg (by decide)]))
  have e3 : broadcastInDim S8x64x64 ![0, 1, 2] bcast_S8x1x64_S8x64x64_0_1_2 (broadcastInDim S8x1x64 ![0, 2] bcast_S8x64_S8x1x64_0_2 d) (ix3 k i j) = d (ix2 k j) :=
    (broadcastInDim_apply _ bcast_S8x1x64_S8x64x64_0_1_2 _ (ix3 k i j) (ix3 k (0 : Fin 1) j) (fun a => match a with
      | ⟨0, _⟩ => by show k.val = if (8 : Nat) = 1 then 0 else k.val; rw [if_neg (by decide)]
      | ⟨1, _⟩ => by show 0 = if (1 : Nat) = 1 then 0 else i.val; rw [if_pos rfl]
      | ⟨2, _⟩ => by show j.val = if (64 : Nat) = 1 then 0 else j.val; rw [if_neg (by decide)])).trans
    (broadcastInDim_apply _ bcast_S8x64_S8x1x64_0_2 d (ix3 k (0 : Fin 1) j) (ix2 k j) (fun a => match a with
      | ⟨0, _⟩ => by show k.val = if (8 : Nat) = 1 then 0 else k.val; rw [if_neg (by decide)]
      | ⟨1, _⟩ => by show j.val = if (64 : Nat) = 1 then 0 else j.val; rw [if_neg (by decide)]))
  rw [e1, e2, e3]

/-! ## The arrays as the region finds them, and each window's block -/

variable (m : (ℓ : Loc nD τ sig) → Buf (Elt Ideal) ℓ) (ρ : Dev nD → PrngReg)

/-- The region's third operand is the relation matrices of the arguments `g` and `d`. -/
theorem V_rel (c : Dev nD) :
    (V m c main_v8 : S8x64x64.Idx → EReal) = relHost (F := Ideal) (m ((c : Thread nD τ).loc main_arg2)) (m ((c : Thread nD τ).loc main_arg3)) := by
  show StableHlo.after hostOps0 (fun b => m (c, b)) (Proc.devRef .tc main_v8) = _
  after_results
  rfl

/-- The printed index maps over the grid: windows 0, 1 and 3 move one block of rows per point, window 2 stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Window 0's block at point t is rows 10000·t … of `row`. -/
theorem iblk0_apply (c : Dev nD) (t : Fin cfg0.N) (x : S10000x64.Idx) (z : S500000x64.Idx)
    (hz0 : (z 0).val = t.val * 10000 + (x 0).val) (hz1 : (z 1).val = (x 1).val) :
    (iblk m c 0 t : Vec Ideal S10000x64 .f32) x = (m ((c : Thread nD τ).loc main_arg0) : S500000x64.Idx → EReal) z := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 10000 + 1 * (x 0).val = (z 0).val; rw [e0, hz0]; omega
  | ⟨1, _⟩ => show win0_0.index t (1 : Fin 2) * 64 + 1 * (x 1).val = (z 1).val; rw [e1, hz1]; omega

/-- Window 1's block at point t is rows 10000·t … of `col`. -/
theorem iblk1_apply (c : Dev nD) (t : Fin cfg0.N) (x : S10000x64.Idx) (z : S500000x64.Idx)
    (hz0 : (z 0).val = t.val * 10000 + (x 0).val) (hz1 : (z 1).val = (x 1).val) :
    (iblk m c 1 t : Vec Ideal S10000x64 .f32) x = (m ((c : Thread nD τ).loc main_arg1) : S500000x64.Idx → EReal) z := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 10000 + 1 * (x 0).val = (z 0).val; rw [e0, hz0]; omega
  | ⟨1, _⟩ => show win0_1.index t (1 : Fin 2) * 64 + 1 * (x 1).val = (z 1).val; rw [e1, hz1]; omega

/-- Window 2's block at every point is the whole array of relation matrices. -/
theorem iblk2_apply (c : Dev nD) (t : Fin cfg0.N) (x : S8x64x64.Idx) :
    (iblk m c 2 t : Vec Ideal S8x64x64 .bf16) x = (V m c main_v8 : S8x64x64.Idx → EReal) x := by
  obtain ⟨-, -, -, -, e0, e1, e2, -⟩ := idx_facts t
  unfold iblk
  rw [View.read_apply]
  show V m c main_v8 _ = _
  refine congrArg _ (funext fun a => Fin.ext ?_)
  match a with
  | ⟨0, _⟩ => show win0_2.index t (0 : Fin 3) * 8 + 1 * (x 0).val = (x 0).val; rw [e0]; omega
  | ⟨1, _⟩ => show win0_2.index t (1 : Fin 3) * 64 + 1 * (x 1).val = (x 1).val; rw [e1]; omega
  | ⟨2, _⟩ => show win0_2.index t (2 : Fin 3) * 64 + 1 * (x 2).val = (x 2).val; rw [e2]; omega

/-! ## What a point writes is its block of the result -/

/-- Over plain blocks: if `x0`, `x1` are rows `base …` of `row`, `col` and `x2` is the relation matrices, the block
    written, at y, is `scoreT` at the row `base + y 0` and relation `y 1`. -/
theorem point_eq (A0 A1 : S500000x64.Idx → EReal) (g : S64x64.Idx → EReal) (d : S8x64.Idx → EReal)
    (x0 x1 : Vec Ideal S10000x64 .f32) (x2 : Vec Ideal S8x64x64 .bf16) (base : Nat)
    (h0 : ∀ (x : S10000x64.Idx) (z : S500000x64.Idx), (z 0).val = base + (x 0).val → (z 1).val = (x 1).val → x0 x = A0 z)
    (h1 : ∀ (x : S10000x64.Idx) (z : S500000x64.Idx), (z 0).val = base + (x 0).val → (z 1).val = (x 1).val → x1 x = A1 z)
    (h2 : ∀ (k : Fin 8) (i j : Fin 64), x2 (ix3 k i j) = relMat g d k i j)
    (y : S10000x8.Idx) (z : S500000x8.Idx) (hz0 : (z 0).val = base + (y 0).val) (hz1 : (z 1).val = (y 1).val) :
    out0_3 (F := Ideal) x0 x1 x2 y = scoreT A0 A1 g d z := by
  obtain ⟨p, k, rfl⟩ : ∃ (p : Fin 10000) (k : Fin 8), y = ix2 p k := ⟨y 0, y 1, eq_ix2 y⟩
  obtain ⟨n, k', rfl⟩ : ∃ (n : Fin 500000) (k' : Fin 8), z = ix2 n k' := ⟨z 0, z 1, eq_ix2 z⟩
  have hn : n.val = base + p.val := hz0
  obtain rfl : k' = k := Fin.ext hz1
  rw [block_apply, scoreT_ix2]
  unfold scoreAt
  refine congrArg sigm ?_
  have er : (fun i : Fin 64 => x0 (ix2 p i)) = fun i => A0 (ix2 n i) := funext fun i => h0 (ix2 p i) (ix2 n i) hn rfl
  have ec : (fun j : Fin 64 => x1 (ix2 p j)) = fun j => A1 (ix2 n j) := funext fun j => h1 (ix2 p j) (ix2 n j) hn rfl
  have em : (fun i j : Fin 64 => x2 (ix3 k' i j)) = relMat g d k' := funext fun i => funext fun j => h2 k' i j
  rw [er, ec, em]

/-- The result laid out pair by relation, of the argument arrays. -/
abbrev GT (c : Dev nD) : S500000x8.Idx → EReal :=
  scoreT (m ((c : Thread nD τ).loc main_arg0)) (m ((c : Thread nD τ).loc main_arg1)) (m ((c : Thread nD τ).loc main_arg2)) (m ((c : Thread nD τ).loc main_arg3))

/-- WHAT POINT `t` WRITES BACK is block `t` of `GT`. -/
theorem flushed3_eq (c : Dev nD) (t : Fin cfg0.N) :
    (dats m 0 c).flushed 3 t = ((cfg0.win 3).blk t).view.read (Elt Ideal) (GT m c) := by
  obtain ⟨-, -, -, -, -, -, -, e0, e1⟩ := idx_facts t
  show (cfg0.win 3).cut (grid0.coords t) ((dats m 0 c).after 3 t) = _
  rw [after0_3]
  funext y
  show out0_3 (F := Ideal) (iblk m c 0 t) (iblk m c 1 t) (iblk m c 2 t) y = GT m c (((cfg0.win 3).blk t).view.emb y)
  refine point_eq _ _ _ _ (iblk m c 0 t) (iblk m c 1 t) (iblk m c 2 t) (t.val * 10000)
    (fun x z hz0 hz1 => iblk0_apply m c t x z hz0 hz1) (fun x z hz0 hz1 => iblk1_apply m c t x z hz0 hz1)
    (fun k i j => ((iblk2_apply m c t (ix3 k i j)).trans (congrFun (V_rel m c) (ix3 k i j))).trans (relHost_apply _ _ k i j))
    y _ ?_ ?_
  · show win0_3.index t (0 : Fin 2) * 10000 + 1 * (y 0).val = t.val * 10000 + (y 0).val; rw [e0]; omega
  · show win0_3.index t (1 : Fin 2) * 8 + 1 * (y 1).val = (y 1).val; rw [e1]; omega

/-! ## The blocks tile the array -/

theorem mem_blk3 (t : Fin cfg0.N) (i : S500000x8.Idx) :
    i ∈ ((cfg0.win 3).blk t).view.set ↔ ∀ a : Fin 2, win0_3.index t a * S10000x8.size a ≤ (i a).val ∧ (i a).val < win0_3.index t a * S10000x8.size a + S10000x8.size a := by
  show i ∈ ((View.whole main_v9).slice (win0_3.rect t)).set ↔ _
  rw [View.set_slice_whole, Rect.mem_set_unit]
  exact Iff.rfl

/-- Row r of the array is in the block of point r / 10000. -/
theorem cover3 (i : S500000x8.Idx) : ∃ t : Fin cfg0.N, (cfg0.win 3).flush t = true ∧ i ∈ ((cfg0.win 3).blk t).view.set := by
  have hN : cfg0.N = 50 := N_0
  have hi0 : (i 0).val < 500000 := (i 0).isLt
  have hi1 : (i 1).val < 8 := (i 1).isLt
  refine ⟨⟨(i 0).val / 10000, by omega⟩, flush0_3 _, ?_⟩
  rw [mem_blk3]
  obtain ⟨-, -, -, -, -, -, -, e0, e1⟩ := idx_facts ⟨(i 0).val / 10000, by omega⟩
  intro a
  match a with
  | ⟨0, _⟩ =>
    show win0_3.index _ (0 : Fin 2) * 10000 ≤ (i 0).val ∧ (i 0).val < win0_3.index _ (0 : Fin 2) * 10000 + 10000
    rw [e0]; show (i 0).val / 10000 * 10000 ≤ (i 0).val ∧ (i 0).val < (i 0).val / 10000 * 10000 + 10000; omega
  | ⟨1, _⟩ =>
    show win0_3.index _ (1 : Fin 2) * 8 ≤ (i 1).val ∧ (i 1).val < win0_3.index _ (1 : Fin 2) * 8 + 8
    rw [e1]; omega

/-- THE ARRAY after the region: `GT`. -/
theorem final3 (c : Dev nD) : (dats m 0 c).arrAt 3 cfg0.N = GT m c :=
  (dats m 0 c).arrAt_eq_of_cover 3 (GT m c) (fun t _ => flushed3_eq m c t) cover3

/-! ## After the region: the transpose, and the run -/

/-- The program's result: the region's array transposed is `score` of the argument arrays. -/
theorem tail_eq (c : Dev nD) :
    Pipeline.afterTail₀ cfgs (dats m) 0 (V0 m) [hostOps1] c main_v10
      = score (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v9) = GT m c :=
    (Pipeline.withArrays_arr spec0 launch0.win.arr_inj c _ _ 3).trans (final3 m c)
  refine (congrArg (fun X => transpose S8x500000 [1, 0] X transposes_S500000x8_S8x500000_1_0) hw).trans ?_
  funext q
  obtain ⟨k, n, rfl⟩ : ∃ (k : Fin 8) (n : Fin 500000), q = ix2 k n := ⟨q 0, q 1, eq_ix2 q⟩
  exact transpose_ix2_apply (GT m c) transposes_S500000x8_S8x500000_1_0 k n

/-- The kernel's run, read: the result at `score` of the arguments, the arguments unchanged. -/
theorem run : θ_run defs (onTc (τ := τ) (main (F := Ideal))) ⟨m, fun _ => 0, ρ⟩ fun r => ∀ c : Dev nD,
      r.2.mem ((c.tc : Thread nD τ).loc main_v10)
        = score (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v10 (Pipeline.mem_restRefs_of main_v10 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Arr

end
-- ==== Proof.RefValue.lean ====
/-
  The reference's side of the value claim: the array the reference program returns is the score array of the statement.

  The reference computes, for each of the eight relations k, the same chain of operations on row k of the scaling
  array: the vector d = d_k is broadcast down the rows and along the columns of g to give the matrix
  M[i, j] = (d[i] * g[i, j]) * d[j]; the row array is contracted with M, the result multiplied elementwise by the column
  array and summed along the second axis from 0; the logistic function follows as negate, exponential, 1 + ., 1 / . .
  The eight results, each viewed as a [1, 500000] array, are joined along the first axis.

  The chain is stated once as a function of the vector d (relChain) and read at an index once (relChain_apply);
  the eight relations are instances, and the joined array is read piece by piece.
-/
import proofs.«158541_j6305011990646_1_alg».proof.Proof.Gen.ReferenceIdeal.Read
import proofs.«158541_j6305011990646_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

/-- One relation's chain as a function of its scaling vector `dv`: the matrix `diag(dv) · g · diag(dv)` by two
    broadcasts and a product each way, the contraction of the row array with it, the product with the column array,
    the sum along the second axis from 0, and the logistic function as `1 / (1 + e^(-x))`. -/
def relChain {F : FTy → Type} [FloatOps F] (x0 x1 : (⟨S500000x64, .f32⟩ : BufTy).Contents (Elt F))
    (x2 : (⟨S64x64, .f32⟩ : BufTy).Contents (Elt F)) (dv : (⟨S64, .f32⟩ : BufTy).Contents (Elt F)) :
    (⟨S500000, .f32⟩ : BufTy).Contents (Elt F) :=
  Host.divf (F := F)
    (broadcastInDim S500000 ![] bcast_S_S500000 (constant (F := F) S_ .f32 0x3F800000#32))
    (addf (F := F)
      (broadcastInDim S500000 ![] bcast_S_S500000 (constant (F := F) S_ .f32 0x3F800000#32))
      (Host.exp (F := F) (Host.negf (F := F)
        (Host.reduceAdd (F := F)
          (mulf (F := F)
            (Host.dotGeneral (F := F) dot_S500000x64_S64x64_S500000x64_1_0_0_1_n_n none x0
              (mulf (F := F)
                (mulf (F := F)
                  (broadcastInDim S64x64 ![0, 1] bcast_S64x1_S64x64_0_1 (broadcastInDim S64x1 ![0] bcast_S64_S64x1_0 dv))
                  x2)
                (broadcastInDim S64x64 ![0, 1] bcast_S1x64_S64x64_0_1 (broadcastInDim S1x64 ![1] bcast_S64_S1x64_1 dv))))
            x1)
          (constant (F := F) S_ .f32 0x00000000#32) reducesTo_S500000x64_S500000_d1 h_S_))))

/-- Each relation's result is the chain at that relation's row of the scaling array. -/
theorem v16_eq {F : FTy → Type} [FloatOps F] (x0 x1 : (⟨S500000x64, .f32⟩ : BufTy).Contents (Elt F))
    (x2 : (⟨S64x64, .f32⟩ : BufTy).Contents (Elt F)) (x3 : (⟨S8x64, .f32⟩ : BufTy).Contents (Elt F)) :
    val_main_v16 (F := F) x0 x1 x2 x3 = relChain x0 x1 x2 (val_main_v1 (F := F) x3) := rfl
theorem v33_eq {F : FTy → Type} [FloatOps F] (x0 x1 : (⟨S500000x64, .f32⟩ : BufTy).Contents (Elt F))
    (x2 : (⟨S64x64, .f32⟩ : BufTy).Contents (Elt F)) (x3 : (⟨S8x64, .f32⟩ : BufTy).Contents (Elt F)) :
    val_main_v33 (F := F) x0 x1 x2 x3 = relChain x0 x1 x2 (val_main_v18 (F := F) x3) := rfl
theorem v50_eq {F : FTy → Type} [FloatOps F] (x0 x1 : (⟨S500000x64, .f32⟩ : BufTy).Contents (Elt F))
    (x2 : (⟨S64x64, .f32⟩ : BufTy).Contents (Elt F)) (x3 : (⟨S8x64, .f32⟩ : BufTy).Contents (Elt F)) :
    val_main_v50 (F := F) x0 x1 x2 x3 = relChain x0 x1 x2 (val_main_v35 (F := F) x3) := rfl
theorem v67_eq {F : FTy → Type} [FloatOps F] (x0 x1 : (⟨S500000x64, .f32⟩ : BufTy).Contents (Elt F))
    (x2 : (⟨S64x64, .f32⟩ : BufTy).Contents (Elt F)) (x3 : (⟨S8x64, .f32⟩ : BufTy).Contents (Elt F)) :
    val_main_v67 (F := F) x0 x1 x2 x3 = relChain x0 x1 x2 (val_main_v52 (F := F) x3) := rfl
theorem v84_eq {F : FTy → Type} [FloatOps F] (x0 x1 : (⟨S500000x64, .f32⟩ : BufTy).Contents (Elt F))
    (x2 : (⟨S64x64, .f32⟩ : BufTy).Contents (Elt F)) (x3 : (⟨S8x64, .f32⟩ : BufTy).Contents (Elt F)) :
    val_main_v84 (F := F) x0 x1 x2 x3 = relChain x0 x1 x2 (val_main_v69 (F := F) x3) := rfl
theorem v101_eq {F : FTy → Type} [FloatOps F] (x0 x1 : (⟨S500000x64, .f32⟩ : BufTy).Contents (Elt F))
    (x2 : (⟨S64x64, .f32⟩ : BufTy).Contents (Elt F)) (x3 : (⟨S8x64, .f32⟩ : BufTy).Contents (Elt F)) :
    val_main_v101 (F := F) x0 x1 x2 x3 = relChain x0 x1 x2 (val_main_v86 (F := F) x3) := rfl
theorem v118_eq {F : FTy → Type} [FloatOps F] (x0 x1 : (⟨S500000x64, .f32⟩ : BufTy).Contents (Elt F))
    (x2 : (⟨S64x64, .f32⟩ : BufTy).Contents (Elt F)) (x3 : (⟨S8x64, .f32⟩ : BufTy).Contents (Elt F)) :
    val_main_v118 (F := F) x0 x1 x2 x3 = relChain x0 x1 x2 (val_main_v103 (F := F) x3) := rfl
theorem v135_eq {F : FTy → Type} [FloatOps F] (x0 x1 : (⟨S500000x64, .f32⟩ : BufTy).Contents (Elt F))
    (x2 : (⟨S64x64, .f32⟩ : BufTy).Contents (Elt F)) (x3 : (⟨S8x64, .f32⟩ : BufTy).Contents (Elt F)) :
    val_main_v135 (F := F) x0 x1 x2 x3 = relChain x0 x1 x2 (val_main_v120 (F := F) x3) := rfl

/-- The constant 1, broadcast to the result's shape, reads its word everywhere. -/
theorem one_apply (i : S500000.Idx) :
    broadcastInDim S500000 ![] bcast_S_S500000 (constant (F := Ideal) S_ .f32 0x3F800000#32) i
      = Ideal.ofBits .f32 0x3F800000#32 :=
  broadcastInDim_apply _ bcast_S_S500000 (constant (F := Ideal) S_ .f32 0x3F800000#32) i (fun a => a.elim0)
    (fun a => a.elim0)

/-- The vector broadcast down the rows: entry (i, j) is `dv i`. -/
theorem rows_apply {α : Type} (dv : S64.Idx → α) (i j : Fin 64) :
    broadcastInDim S64x64 ![0, 1] bcast_S64x1_S64x64_0_1 (broadcastInDim S64x1 ![0] bcast_S64_S64x1_0 dv) (ix2 i j)
      = dv (ix1 i) := by
  refine (broadcastInDim_apply _ bcast_S64x1_S64x64_0_1 _ (ix2 i j) (ix2 i (0 : Fin 1)) (fun a => ?_)).trans
    (broadcastInDim_apply _ bcast_S64_S64x1_0 dv (ix2 i (0 : Fin 1)) (ix1 i) (fun a => ?_))
  · match a with
    | ⟨0, _⟩ => show i.val = if (64 : Nat) = 1 then 0 else i.val; rw [if_neg (by decide)]
    | ⟨1, _⟩ => show 0 = if (1 : Nat) = 1 then 0 else j.val; rw [if_pos rfl]
  · match a with
    | ⟨0, _⟩ => show i.val = if (64 : Nat) = 1 then 0 else i.val; rw [if_neg (by decide)]

/-- The vector broadcast along the columns: entry (i, j) is `dv j`. -/
theorem cols_apply {α : Type} (dv : S64.Idx → α) (i j : Fin 64) :
    broadcastInDim S64x64 ![0, 1] bcast_S1x64_S64x64_0_1 (broadcastInDim S1x64 ![1] bcast_S64_S1x64_1 dv) (ix2 i j)
      = dv (ix1 j) := by
  refine (broadcastInDim_apply _ bcast_S1x64_S64x64_0_1 _ (ix2 i j) (ix2 (0 : Fin 1) j) (fun a => ?_)).trans
    (broadcastInDim_apply _ bcast_S64_S1x64_1 dv (ix2 (0 : Fin 1) j) (ix1 j) (fun a => ?_))
  · match a with
    | ⟨0, _⟩ => show 0 = if (1 : Nat) = 1 then 0 else i.val; rw [if_pos rfl]
    | ⟨1, _⟩ => show j.val = if (64 : Nat) = 1 then 0 else j.val; rw [if_neg (by decide)]
  · match a with
    | ⟨0, _⟩ => show j.val = if (64 : Nat) = 1 then 0 else j.val; rw [if_neg (by decide)]

/-- The contraction of the row array with a [64, 64] matrix, at (n, j): the sum over the shared axis. -/
theorem dot_apply (x0 : FVec Ideal S500000x64 .f32) (y : FVec Ideal S64x64 .f32) (n : Fin 500000) (j : Fin 64) :
    Host.dotGeneral (F := Ideal) dot_S500000x64_S64x64_S500000x64_1_0_0_1_n_n none x0 y (ix2 n j)
      = ∑ i : Fin 64, x0 (ix2 n i) * y (ix2 i j) := by
  simp only [Host.dotGeneral]
  rw [Ideal.dotGeneral_apply,
    ← Equiv.sum_comp (ValueIdx.contrEquiv1 dot_S500000x64_S64x64_S500000x64_1_0_0_1_n_n 64 rfl rfl).symm]
  refine Finset.sum_congr rfl fun i _ => ?_
  have hi := ValueIdx.contrEquiv1_symm_val dot_S500000x64_S64x64_S500000x64_1_0_0_1_n_n 64 rfl rfl i
  refine congrArg₂ (· * ·) (congrArg x0 (funext fun a => Fin.ext ?_)) (congrArg y (funext fun a => Fin.ext ?_))
  · match a with
    | ⟨0, _⟩ => exact lhs_main_v8_0 _ _
    | ⟨1, _⟩ => exact (lhs_main_v8_1 _ _).trans hi
  · match a with
    | ⟨0, _⟩ => exact (rhs_main_v8_0 _ _).trans hi
    | ⟨1, _⟩ => exact rhs_main_v8_1 _ _

/-- The sum along the second axis from the constant 0, at n: the plain sum of the row. -/
theorem rowsum_apply (y : FVec Ideal S500000x64 .f32) (n : Fin 500000) :
    Host.reduceAdd (F := Ideal) y (constant (F := Ideal) S_ .f32 0x00000000#32) reducesTo_S500000x64_S500000_d1 h_S_ (ix1 n)
      = ∑ j : Fin 64, y (ix2 n j) := by
  simp only [Host.reduceAdd, Ideal.hostReduceAdd_def]
  rw [Ideal.hostReduceAdd_single reducesTo_S500000x64_S500000_d1 (by decide)]
  refine (congrArg (· + _) Ideal.ofBits_zero_f32).trans ((zero_add _).trans (Finset.sum_congr rfl fun j _ => ?_))
  exact congrArg y (funext fun a => Fin.ext (by match a with | ⟨0, _⟩ => rfl | ⟨1, _⟩ => rfl))

/-- The logistic function as the chain spells it, over any vector: `1 / (1 + e^(-r))` elementwise. -/
theorem logistic_apply (r : FVec Ideal S500000 .f32) (i : S500000.Idx) :
    Host.divf (F := Ideal)
      (broadcastInDim S500000 ![] bcast_S_S500000 (constant (F := Ideal) S_ .f32 0x3F800000#32))
      (addf (F := Ideal)
        (broadcastInDim S500000 ![] bcast_S_S500000 (constant (F := Ideal) S_ .f32 0x3F800000#32))
        (Host.exp (F := Ideal) (Host.negf (F := Ideal) r))) i
      = Cert.RelScore.sigm (r i) := by
  show Ideal.div (broadcastInDim S500000 ![] bcast_S_S500000 (constant (F := Ideal) S_ .f32 0x3F800000#32) i)
      (broadcastInDim S500000 ![] bcast_S_S500000 (constant (F := Ideal) S_ .f32 0x3F800000#32) i + Ideal.exp (-(r i))) = _
  rw [one_apply]
  rfl

/-- The matrix `diag(dv) · g · diag(dv)` at (i, j): rows scaled first, then columns. -/
theorem scaled_apply (x2 : FVec Ideal S64x64 .f32) (dv : FVec Ideal S64 .f32) (i j : Fin 64) :
    mulf (F := Ideal)
      (mulf (F := Ideal)
        (broadcastInDim S64x64 ![0, 1] bcast_S64x1_S64x64_0_1 (broadcastInDim S64x1 ![0] bcast_S64_S64x1_0 dv)) x2)
      (broadcastInDim S64x64 ![0, 1] bcast_S1x64_S64x64_0_1 (broadcastInDim S1x64 ![1] bcast_S64_S1x64_1 dv)) (ix2 i j)
      = dv (ix1 i) * x2 (ix2 i j) * dv (ix1 j) := by
  rw [mulf_apply, mulf_apply, rows_apply, cols_apply]

/-- **The chain at an index**: the logistic function of the bilinear form of row n and column n in the matrix
    `diag(dv) · g · diag(dv)`, with the products grouped as the operations group them. -/
theorem relChain_apply (x0 x1 : (⟨S500000x64, .f32⟩ : BufTy).Contents (Elt Ideal))
    (x2 : (⟨S64x64, .f32⟩ : BufTy).Contents (Elt Ideal)) (dv : (⟨S64, .f32⟩ : BufTy).Contents (Elt Ideal))
    (n : Fin 500000) :
    relChain (F := Ideal) x0 x1 x2 dv (ix1 n)
      = Cert.RelScore.sigm (Cert.RelScore.bilin (fun i => x0 (ix2 n i)) (fun j => x1 (ix2 n j))
          (fun i j => dv (ix1 i) * x2 (ix2 i j) * dv (ix1 j))) := by
  unfold relChain Cert.RelScore.bilin
  refine (logistic_apply _ (ix1 n)).trans (congrArg Cert.RelScore.sigm ((rowsum_apply _ n).trans
    (Finset.sum_congr rfl fun j _ => (mulf_apply _ _ _).trans (congrArg (· * _) ((dot_apply x0 _ n j).trans
      (Finset.sum_congr rfl fun i _ => congrArg (_ * ·) (scaled_apply x2 dv i j)))))))

/-- Row `k` of the scaling array, as a vector of length 64. -/
def rowVec {F : FTy → Type} [FloatOps F] (x3 : (⟨S8x64, .f32⟩ : BufTy).Contents (Elt F)) (k : Fin 8) :
    (⟨S64, .f32⟩ : BufTy).Contents (Elt F) := fun i => x3 (ix2 k (i 0))

section Rows
variable {F : FTy → Type} [FloatOps F] (x3 : (⟨S8x64, .f32⟩ : BufTy).Contents (Elt F))

/-! Each relation's slice of one row followed by the reshape to a vector is that row: the slice starts at row k and
    column 0, and the reshape's flat position of (0, c) is c. -/

theorem row0 : val_main_v1 (F := F) x3 = rowVec x3 ⟨0, by decide⟩ := by
  funext i
  rw [val_main_v1_apply, val_main_v0_apply]
  exact congrArg x3 (funext fun a => Fin.ext (by
    match a with | ⟨0, _⟩ => rfl | ⟨1, _⟩ => exact Nat.mod_eq_of_lt (i 0).isLt))

theorem row1 : val_main_v18 (F := F) x3 = rowVec x3 ⟨1, by decide⟩ := by
  funext i
  rw [val_main_v18_apply, val_main_v17_apply]
  exact congrArg x3 (funext fun a => Fin.ext (by
    match a with | ⟨0, _⟩ => rfl | ⟨1, _⟩ => exact Nat.mod_eq_of_lt (i 0).isLt))

theorem row2 : val_main_v35 (F := F) x3 = rowVec x3 ⟨2, by decide⟩ := by
  funext i
  rw [val_main_v35_apply, val_main_v34_apply]
  exact congrArg x3 (funext fun a => Fin.ext (by
    match a with | ⟨0, _⟩ => rfl | ⟨1, _⟩ => exact Nat.mod_eq_of_lt (i 0).isLt))

theorem row3 : val_main_v52 (F := F) x3 = rowVec x3 ⟨3, by decide⟩ := by
  funext i
  rw [val_main_v52_apply, val_main_v51_apply]
  exact congrArg x3 (funext fun a => Fin.ext (by
    match a with | ⟨0, _⟩ => rfl | ⟨1, _⟩ => exact Nat.mod_eq_of_lt (i 0).isLt))

theorem row4 : val_main_v69 (F := F) x3 = rowVec x3 ⟨4, by decide⟩ := by
  funext i
  rw [val_main_v69_apply, val_main_v68_apply]
  exact congrArg x3 (funext fun a => Fin.ext (by
    match a with | ⟨0, _⟩ => rfl | ⟨1, _⟩ => exact Nat.mod_eq_of_lt (i 0).isLt))

theorem row5 : val_main_v86 (F := F) x3 = rowVec x3 ⟨5, by decide⟩ := by
  funext i
  rw [val_main_v86_apply, val_main_v85_apply]
  exact congrArg x3 (funext fun a => Fin.ext (by
    match a with | ⟨0, _⟩ => rfl | ⟨1, _⟩ => exact Nat.mod_eq_of_lt (i 0).isLt))

theorem row6 : val_main_v103 (F := F) x3 = rowVec x3 ⟨6, by decide⟩ := by
  funext i
  rw [val_main_v103_apply, val_main_v102_apply]
  exact congrArg x3 (funext fun a => Fin.ext (by
    match a with | ⟨0, _⟩ => rfl | ⟨1, _⟩ => exact Nat.mod_eq_of_lt (i 0).isLt))

theorem row7 : val_main_v120 (F := F) x3 = rowVec x3 ⟨7, by decide⟩ := by
  funext i
  rw [val_main_v120_apply, val_main_v119_apply]
  exact congrArg x3 (funext fun a => Fin.ext (by
    match a with | ⟨0, _⟩ => rfl | ⟨1, _⟩ => exact Nat.mod_eq_of_lt (i 0).isLt))

end Rows

/-- One piece of the joined array: a chain's result viewed as a [1, 500000] array, at (0, n), is the score of pair n
    under the relation whose row the chain was given. -/
theorem piece (x0 x1 : (⟨S500000x64, .f32⟩ : BufTy).Contents (Elt Ideal)) (x2 : (⟨S64x64, .f32⟩ : BufTy).Contents (Elt Ideal))
    (x3 : (⟨S8x64, .f32⟩ : BufTy).Contents (Elt Ideal)) (k : Fin 8) (n : Fin 500000)
    (y : (⟨S500000, .f32⟩ : BufTy).Contents (Elt Ideal)) (hy : y = relChain x0 x1 x2 (rowVec x3 k)) :
    broadcastInDim S1x500000 ![1] bcast_S500000_S1x500000_1 y (ix2 (0 : Fin 1) n)
      = Cert.RelScore.scoreAt x0 x1 x2 x3 k n := by
  subst hy
  refine (broadcastInDim_apply _ bcast_S500000_S1x500000_1 _ (ix2 (0 : Fin 1) n) (ix1 n) (fun a => ?_)).trans
    ((relChain_apply x0 x1 x2 _ n).trans rfl)
  match a with
  | ⟨0, _⟩ => show n.val = if (500000 : Nat) = 1 then 0 else n.val; rw [if_neg (by decide)]

/-- Off the joined axis, the index (0, n) of a piece and the index (k, n) of the whole have the same coordinate. -/
theorem off_axis (k : Fin 8) (n : Fin 500000) (b : Fin S1x500000.rank)
    (hb : b.cast (rfl : S1x500000.rank = S8x500000.rank) ≠ (0 : Fin S8x500000.rank)) :
    ((ix2 (0 : Fin 1) n) b).val = ((ix2 k n) (b.cast (rfl : S1x500000.rank = S8x500000.rank))).val := by
  match b with
  | ⟨0, _⟩ => exact absurd rfl hb
  | ⟨1, _⟩ => rfl

/-- The returned array at (k, n): piece k of the eight joined along the first axis, each of extent 1 there. -/
theorem ref_ix (x0 x1 : (⟨S500000x64, .f32⟩ : BufTy).Contents (Elt Ideal)) (x2 : (⟨S64x64, .f32⟩ : BufTy).Contents (Elt Ideal))
    (x3 : (⟨S8x64, .f32⟩ : BufTy).Contents (Elt Ideal)) (k : Fin 8) (n : Fin 500000) :
    val_main_v144 (F := Ideal) x0 x1 x2 x3 (ix2 k n) = Cert.RelScore.scoreAt x0 x1 x2 x3 k n := by
  unfold val_main_v144
  match k with
  | ⟨0, _⟩ =>
    exact (concatenate_apply_piece (0 : Fin S8x500000.rank) _ _ (ix2 _ n) 0 (show _ < 8 by decide) S1x500000 _ rfl rfl 0 rfl
      (ix2 (0 : Fin 1) n) (off_axis _ n) rfl).trans
      (piece x0 x1 x2 x3 _ n _ ((v16_eq x0 x1 x2 x3).trans (congrArg _ (row0 x3))))
  | ⟨1, _⟩ =>
    exact (concatenate_apply_piece (0 : Fin S8x500000.rank) _ _ (ix2 _ n) 1 (show _ < 8 by decide) S1x500000 _ rfl rfl 1 rfl
      (ix2 (0 : Fin 1) n) (off_axis _ n) rfl).trans
      (piece x0 x1 x2 x3 _ n _ ((v33_eq x0 x1 x2 x3).trans (congrArg _ (row1 x3))))
  | ⟨2, _⟩ =>
    exact (concatenate_apply_piece (0 : Fin S8x500000.rank) _ _ (ix2 _ n) 2 (show _ < 8 by decide) S1x500000 _ rfl rfl 2 rfl
      (ix2 (0 : Fin 1) n) (off_axis _ n) rfl).trans
      (piece x0 x1 x2 x3 _ n _ ((v50_eq x0 x1 x2 x3).trans (congrArg _ (row2 x3))))
  | ⟨3, _⟩ =>
    exact (concatenate_apply_piece (0 : Fin S8x500000.rank) _ _ (ix2 _ n) 3 (show _ < 8 by decide) S1x500000 _ rfl rfl 3 rfl
      (ix2 (0 : Fin 1) n) (off_axis _ n) rfl).trans
      (piece x0 x1 x2 x3 _ n _ ((v67_eq x0 x1 x2 x3).trans (congrArg _ (row3 x3))))
  | ⟨4, _⟩ =>
    exact (concatenate_apply_piece (0 : Fin S8x500000.rank) _ _ (ix2 _ n) 4 (show _ < 8 by decide) S1x500000 _ rfl rfl 4 rfl
      (ix2 (0 : Fin 1) n) (off_axis _ n) rfl).trans
      (piece x0 x1 x2 x3 _ n _ ((v84_eq x0 x1 x2 x3).trans (congrArg _ (row4 x3))))
  | ⟨5, _⟩ =>
    exact (concatenate_apply_piece (0 : Fin S8x500000.rank) _ _ (ix2 _ n) 5 (show _ < 8 by decide) S1x500000 _ rfl rfl 5 rfl
      (ix2 (0 : Fin 1) n) (off_axis _ n) rfl).trans
      (piece x0 x1 x2 x3 _ n _ ((v101_eq x0 x1 x2 x3).trans (congrArg _ (row5 x3))))
  | ⟨6, _⟩ =>
    exact (concatenate_apply_piece (0 : Fin S8x500000.rank) _ _ (ix2 _ n) 6 (show _ < 8 by decide) S1x500000 _ rfl rfl 6 rfl
      (ix2 (0 : Fin 1) n) (off_axis _ n) rfl).trans
      (piece x0 x1 x2 x3 _ n _ ((v118_eq x0 x1 x2 x3).trans (congrArg _ (row6 x3))))
  | ⟨7, _⟩ =>
    exact (concatenate_apply_piece (0 : Fin S8x500000.rank) _ _ (ix2 _ n) 7 (show _ < 8 by decide) S1x500000 _ rfl rfl 7 rfl
      (ix2 (0 : Fin 1) n) (off_axis _ n) rfl).trans
      (piece x0 x1 x2 x3 _ n _ ((v135_eq x0 x1 x2 x3).trans (congrArg _ (row7 x3))))

/-- **The reference's value**: the array the reference program returns is the score array. -/
theorem ref_eq (x0 x1 : (⟨S500000x64, .f32⟩ : BufTy).Contents (Elt Ideal)) (x2 : (⟨S64x64, .f32⟩ : BufTy).Contents (Elt Ideal)) (x3 : (⟨S8x64, .f32⟩ : BufTy).Contents (Elt Ideal)) :
    val_main_v144 (F := Ideal) x0 x1 x2 x3 = Cert.RelScore.score x0 x1 x2 x3 := by
  funext q
  obtain ⟨k, n, rfl⟩ : ∃ (k : Fin 8) (n : Fin 500000), q = ix2 k n := ⟨q 0, q 1, eq_ix2 q⟩
  exact (ref_ix x0 x1 x2 x3 k n).trans (Cert.RelScore.score_ix2 x0 x1 x2 x3 k n).symm

end Cert.ReferenceIdeal.RefValue

end
-- ==== Proof.lean ====
/-
  The kernel scores 500000 candidate pairs under 8 relations: with `M_k = diag(d_k) · g · diag(d_k)`,

      out[k, n] = 1 / (1 + e^(-(row[n, ·] · M_k · col[n, ·]))).

  The kernel builds all eight `M_k` on the host, then for each block of 10000 pairs forms `row_block · M_k`, multiplies by
  `col_block` entry by entry, sums each row, joins the eight columns, applies the logistic function written with `0 - x`,
  and the host transposes the [500000, 8] result. The reference does one relation at a time over all pairs: the same
  matrix with the same grouping `(d_k[i] · g[i, j]) · d_k[j]`, the same product and row sum, the logistic function
  written with a negation, the eight rows stacked.

  On the extended reals a change of float format is the identity, a matrix product into a zero accumulator and a
  host dot product are the same sum over the contraction index, and a lane sum and a host sum from zero are the same
  sum; `0 - x = -x`. So both results are the one function `score` of the argument arrays (Proof/Spec.lean), entry by
  entry, with no use of the inputs' finiteness. The kernel's side is read off its frame run (what a grid point writes,
  Proof/KernelBody.lean; the blocks tiling the array and the transpose, Proof/KernelArray.lean), the reference's off
  its run one operation at a time (Proof/RefValue.lean). Nothing was rewritten by the idealization, so the
  `preserves` claim is `True`.
-/
import proofs.«158541_j6305011990646_1_alg».proof.Defs
import proofs.«158541_j6305011990646_1_alg».proof.Proof.Gen.Kernel
import proofs.«158541_j6305011990646_1_alg».proof.Proof.Gen.Kernel.Skeleton
import proofs.«158541_j6305011990646_1_alg».proof.Proof.Gen.Kernel.Launch
import proofs.«158541_j6305011990646_1_alg».proof.Proof.Gen.Kernel.Points
import proofs.«158541_j6305011990646_1_alg».proof.Proof.Gen.Kernel.Frame
import proofs.«158541_j6305011990646_1_alg».proof.Proof.Gen.KernelIdeal
import proofs.«158541_j6305011990646_1_alg».proof.Proof.Gen.KernelIdeal.Skeleton
import proofs.«158541_j6305011990646_1_alg».proof.Proof.Gen.KernelIdeal.Launch
import proofs.«158541_j6305011990646_1_alg».proof.Proof.Gen.KernelIdeal.Points
import proofs.«158541_j6305011990646_1_alg».proof.Proof.Gen.KernelIdeal.Frame
import proofs.«158541_j6305011990646_1_alg».proof.Proof.Gen.ReferenceIdeal
import proofs.«158541_j6305011990646_1_alg».proof.Proof.Gen.ReferenceIdeal.Run
import proofs.«158541_j6305011990646_1_alg».proof.Proof.Gen.ReferenceIdeal.Read
import proofs.«158541_j6305011990646_1_alg».proof.Proof.Gen.Pre_finite_inputs
import proofs.«158541_j6305011990646_1_alg».proof.Proof.KernelArray
import proofs.«158541_j6305011990646_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `score` of the argument arrays: the kernel by its frame run read block by block and
    transposed, the reference by its run read one operation at a time, from arguments that agree. -/
theorem algebraic : Cert.algebraic_KernelIdeal_ReferenceIdeal := by
  intro m ρ m' ρ' _ hagree
  refine ⟨fun c => Cert.RelScore.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v144_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
